-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S10000x10000 : Shape := ⟨2, ![10000, 10000]⟩
abbrev S256x512 : Shape := ⟨2, ![256, 512]⟩
abbrev S64x256 : Shape := ⟨2, ![64, 256]⟩
abbrev S64 : Shape := ⟨1, ![64]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S256x512 : S_.BroadcastsInDim S256x512 (![] : Fin 0 → Fin S256x512.rank)
  reducesTo_S256x512_S_d0_1 : S256x512.ReducesTo [0, 1] S_
  bcast_S_S64x256 : S_.BroadcastsInDim S64x256 (![] : Fin 0 → Fin S64x256.rank)
  reducesTo_S64x256_S_d0_1 : S64x256.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S64x256 1) : IVec S_ 1 :=
  let main_c_5 : IVec S_ 1 := constantI S_ 1 1#1
  let main_v17 : IVec S_ 1 := (fun x v => Host.reduce IntOp.andi x v reducesTo_S64x256_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S10000x256 .f32) (main_arg1 : FVec F S10000x10000 .f32) (main_arg2 : FVec F S256x512 .f32) (main_arg3 : FVec F S64x256 .f32) (main_arg4 : FVec F S64 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S256x512 .f32 := Host.absf main_arg2
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S64x256 .f32 := Host.absf main_arg3
  let main_cst_4 : FVec F S_ .f32 := constant S_ .f32 0x7F800000#32
  let main_v15 : FVec F S64x256 .f32 := broadcastInDim S64x256 ![] bcast_S_S64x256 main_cst_4
  let main_v16 : IVec S64x256 1 := cmpf .olt main_v14 main_v15
  fn_part1 (F := F) main_arg4 main_v13 main_v16
-- ==== Kernel.lean ====
abbrev S10000x256 : Shape := ⟨2, ![10000, 256]⟩
abbrev S10000x10000 : Shape := ⟨2, ![10000, 10000]⟩
abbrev S256x512 : Shape := ⟨2, ![256, 512]⟩
abbrev S64x256 : Shape := ⟨2, ![64, 256]⟩
abbrev S64 : Shape := ⟨1, ![64]⟩
abbrev S256x256 : Shape := ⟨2, ![256, 256]⟩
abbrev S256x64 : Shape := ⟨2, ![256, 64]⟩
abbrev S1x64 : Shape := ⟨2, ![1, 64]⟩
abbrev S_ : Shape := ⟨0, ![]⟩
abbrev S10000x1 : Shape := ⟨2, ![10000, 1]⟩
abbrev S10000x257 : Shape := ⟨2, ![10000, 257]⟩
abbrev S10000x64 : Shape := ⟨2, ![10000, 64]⟩
abbrev S400x10000 : Shape := ⟨2, ![400, 10000]⟩
abbrev S400x64 : Shape := ⟨2, ![400, 64]⟩
abbrev S400x257 : Shape := ⟨2, ![400, 257]⟩
abbrev S400x256 : Shape := ⟨2, ![400, 256]⟩
abbrev S400x1 : Shape := ⟨2, ![400, 1]⟩

abbrev nBuf : Space → Nat
  | .hbm => 15
  | .vmem => 9
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x512, .f32⟩
  | .hbm, ⟨3, _⟩ => ⟨S64x256, .f32⟩
  | .hbm, ⟨4, _⟩ => ⟨S64, .f32⟩
  | .hbm, ⟨5, _⟩ => ⟨S256x256, .f32⟩
  | .hbm, ⟨6, _⟩ => ⟨S256x256, .f32⟩
  | .hbm, ⟨7, _⟩ => ⟨S256x256, .f32⟩
  | .hbm, ⟨8, _⟩ => ⟨S256x256, .f32⟩
  | .hbm, ⟨9, _⟩ => ⟨S256x64, .f32⟩
  | .hbm, ⟨10, _⟩ => ⟨S1x64, .f32⟩
  | .hbm, ⟨11, _⟩ => ⟨S_, .f32⟩
  | .hbm, ⟨12, _⟩ => ⟨S10000x1, .f32⟩
  | .hbm, ⟨13, _⟩ => ⟨S10000x257, .f32⟩
  | .hbm, ⟨14, _⟩ => ⟨S10000x64, .f32⟩
  | .local _ .vmem, ⟨0, _⟩ => ⟨S400x10000, .f32⟩
  | .local _ .vmem, ⟨1, _⟩ => ⟨S400x10000, .f32⟩
  | .local _ .vmem, ⟨2, _⟩ => ⟨S10000x257, .f32⟩
  | .local _ .vmem, ⟨3, _⟩ => ⟨S256x256, .f32⟩
  | .local _ .vmem, ⟨4, _⟩ => ⟨S256x256, .f32⟩
  | .local _ .vmem, ⟨5, _⟩ => ⟨S256x64, .f32⟩
  | .local _ .vmem, ⟨6, _⟩ => ⟨S1x64, .f32⟩
  | .local _ .vmem, ⟨7, _⟩ => ⟨S400x64, .f32⟩
  | .local _ .vmem, ⟨8, _⟩ => ⟨S400x64, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_cst : Ref sig .tc := ⟨.hbm, 11, rfl⟩
abbrev main_call0_v6 : Ref sig .tc := ⟨.hbm, 12, rfl⟩
abbrev main_call0_v7 : Ref sig .tc := ⟨.hbm, 13, rfl⟩
abbrev main_v0 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![25], ![false]⟩

def k0_off1 (i : grid0.Coords) : Fin 2 → Nat :=
  let arg0 : BitVec 32 := BitVec.ofNat 32 (i 0).val
  let c400_i32 : BitVec 32 := 400#32
  let v10 : BitVec 32 := Scalar.muli arg0 c400_i32
  let v11 : Index := Scalar.indexCast v10
  let c0_4 : Index := 0#32
  ![v11.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x257 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S400x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S256x512_S256x256_0_0 : S256x512.Slices ![0, 0] S256x256
  transposes_S256x256_S256x256_1_0 : S256x256.Transposes [1, 0] S256x256
  slices_S256x512_S256x256_0_256 : S256x512.Slices ![0, 256] S256x256
  transposes_S64x256_S256x64_1_0 : S64x256.Transposes [1, 0] S256x64
  shapeCasts_S64_S1x64 : S64.ShapeCasts S1x64
  bcast_S_S10000x1 : S_.BroadcastsInDim S10000x1 (![] : Fin 0 → Fin S10000x1.rank)
  concatenates_S10000x256_S10000x1_S10000x257_d1 : Shape.Concatenates [S10000x256, S10000x1] S10000x257 1
  inb_S400x10000_S400x10000_0_0 : ∀ a, (![0, 0] : Fin 2 → Nat) a + S400x10000.size a ≤ S400x10000.size a
  h_S400x10000 : 0 < S400x10000.numel
  inb_S10000x257_S10000x257_0_0 : ∀ a, (![0, 0] : Fin 2 → Nat) a + S10000x257.size a ≤ S10000x257.size a
  h_S10000x257 : 0 < S10000x257.numel
  shapeCasts_S10000x257_S10000x257 : S10000x257.ShapeCasts S10000x257
  slices_S400x257_o0_0_S400x256 : S400x257.Slices ![0, 0] S400x256
  slices_S400x257_o0_256_S400x1 : S400x257.Slices ![0, 256] S400x1
  broadcasts_S400x1_S400x256 : S400x1.Broadcasts S400x256
  h_S400x256 : 0 < S400x256.numel
  shapeCasts_S400x256_S400x256 : S400x256.ShapeCasts S400x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  inb_S400x64_S400x64_0_0 : ∀ a, (![0, 0] : Fin 2 → Nat) a + S400x64.size a ≤ S400x64.size a
  h_S400x64 : 0 < S400x64.numel
  dot_S400x10000_S10000x257_S400x257_1_0_0_1_n_n_wf : DotDims.WF S400x10000 S10000x257 S400x257 [1] [0] [0] [1] [] []
  dot_S400x256_S256x256_S400x256_1_0_0_1_n_n_wf : DotDims.WF S400x256 S256x256 S400x256 [1] [0] [0] [1] [] []
  dot_S400x256_S256x64_S400x64_1_0_0_1_n_n_wf : DotDims.WF S400x256 S256x64 S400x64 [1] [0] [0] [1] [] []
  hrank0 : 0 < grid0.rank
  k0_off1_inb : ∀ i : grid0.Coords, ∀ a, (k0_off1 i) a + S400x256.size a ≤ S10000x257.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x257.size a ≤ S10000x257.size a
  hwx0_1 : ∀ i : grid0.Coords, EltTy.bits .f32 = 32 ∨ (Rect.block (s := S10000x257) S10000x257.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x64.size a ≤ S256x64.size a
  hwx0_4 : ∀ i : grid0.Coords, EltTy.bits .f32 = 32 ∨ (Rect.block (s := S256x64) S256x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x64.size a ≤ S10000x64.size a
  hwx0_6 : ∀ i : grid0.Coords, EltTy.bits .f32 = 32 ∨ (Rect.block (s := S10000x64) S400x64.size (cc0_transform_6 i) (hinb0_6 i)).WholeWords (EltTy.packing .f32)

variable [Facts₀]

def dot_S400x10000_S10000x257_S400x257_1_0_0_1_n_n : DotDims S400x10000 S10000x257 S400x257 where
  lhsContracting := [1]
  rhsContracting := [0]
  lhsNonContracting := [0]
  rhsNonContracting := [1]
  lhsBatch := []
  rhsBatch := []
  wf := dot_S400x10000_S10000x257_S400x257_1_0_0_1_n_n_wf
def dot_S400x256_S256x256_S400x256_1_0_0_1_n_n : DotDims S400x256 S256x256 S400x256 where
  lhsContracting := [1]
  rhsContracting := [0]
  lhsNonContracting := [0]
  rhsNonContracting := [1]
  lhsBatch := []
  rhsBatch := []
  wf := dot_S400x256_S256x256_S400x256_1_0_0_1_n_n_wf
def dot_S400x256_S256x64_S400x64_1_0_0_1_n_n : DotDims S400x256 S256x64 S400x64 where
  lhsContracting := [1]
  rhsContracting := [0]
  lhsNonContracting := [0]
  rhsNonContracting := [1]
  lhsBatch := []
  rhsBatch := []
  wf := dot_S400x256_S256x64_S400x64_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v7) S10000x257.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v4) S256x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v5) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S400x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S10000x256 : Shape := ⟨2, ![10000, 256]⟩
abbrev S10000x10000 : Shape := ⟨2, ![10000, 10000]⟩
abbrev S256x512 : Shape := ⟨2, ![256, 512]⟩
abbrev S64x256 : Shape := ⟨2, ![64, 256]⟩
abbrev S64 : Shape := ⟨1, ![64]⟩
abbrev S_ : Shape := ⟨0, ![]⟩
abbrev S10000 : Shape := ⟨1, ![10000]⟩
abbrev S10000x1 : Shape := ⟨2, ![10000, 1]⟩
abbrev S10000x512 : Shape := ⟨2, ![10000, 512]⟩
abbrev S512x256 : Shape := ⟨2, ![512, 256]⟩
abbrev S256x64 : Shape := ⟨2, ![256, 64]⟩
abbrev S10000x64 : Shape := ⟨2, ![10000, 64]⟩
abbrev S1x64 : Shape := ⟨2, ![1, 64]⟩

abbrev nBuf : Space → Nat
  | .hbm => 25
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x512, .f32⟩
  | .hbm, ⟨3, _⟩ => ⟨S64x256, .f32⟩
  | .hbm, ⟨4, _⟩ => ⟨S64, .f32⟩
  | .hbm, ⟨5, _⟩ => ⟨S_, .f32⟩
  | .hbm, ⟨6, _⟩ => ⟨S10000, .f32⟩
  | .hbm, ⟨7, _⟩ => ⟨S10000x1, .f32⟩
  | .hbm, ⟨8, _⟩ => ⟨S10000x256, .f32⟩
  | .hbm, ⟨9, _⟩ => ⟨S_, .f32⟩
  | .hbm, ⟨10, _⟩ => ⟨S10000x1, .f32⟩
  | .hbm, ⟨11, _⟩ => ⟨S10000x1, .f32⟩
  | .hbm, ⟨12, _⟩ => ⟨S10000x256, .f32⟩
  | .hbm, ⟨13, _⟩ => ⟨S10000x256, .f32⟩
  | .hbm, ⟨14, _⟩ => ⟨S10000x512, .f32⟩
  | .hbm, ⟨15, _⟩ => ⟨S512x256, .f32⟩
  | .hbm, ⟨16, _⟩ => ⟨S10000x256, .f32⟩
  | .hbm, ⟨17, _⟩ => ⟨S_, .f32⟩
  | .hbm, ⟨18, _⟩ => ⟨S10000x256, .f32⟩
  | .hbm, ⟨19, _⟩ => ⟨S10000x256, .f32⟩
  | .hbm, ⟨20, _⟩ => ⟨S256x64, .f32⟩
  | .hbm, ⟨21, _⟩ => ⟨S10000x64, .f32⟩
  | .hbm, ⟨22, _⟩ => ⟨S1x64, .f32⟩
  | .hbm, ⟨23, _⟩ => ⟨S10000x64, .f32⟩
  | .hbm, ⟨24, _⟩ => ⟨S10000x64, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_call0_cst : Ref sig .tc := ⟨.hbm, 17, rfl⟩
abbrev main_call0_v0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]

class Facts₀ : Prop where
  reducesTo_S10000x10000_S10000_d1 : S10000x10000.ReducesTo [1] S10000
  h_S_ : 0 < S_.numel
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x256_0_1 : S10000x1.BroadcastsInDim S10000x256 (![0, 1] : Fin 2 → Fin S10000x256.rank)
  concatenates_S10000x256_S10000x256_S10000x512_d1 : Shape.Concatenates [S10000x256, S10000x256] S10000x512 1
  transposes_S256x512_S512x256_1_0 : S256x512.Transposes [1, 0] S512x256
  bcast_S_S10000x256 : S_.BroadcastsInDim S10000x256 (![] : Fin 0 → Fin S10000x256.rank)
  transposes_S64x256_S256x64_1_0 : S64x256.Transposes [1, 0] S256x64
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  dot_S10000x10000_S10000x256_S10000x256_1_0_0_1_n_n_wf : DotDims.WF S10000x10000 S10000x256 S10000x256 [1] [0] [0] [1] [] []
  dot_S10000x512_S512x256_S10000x256_1_0_0_1_n_n_wf : DotDims.WF S10000x512 S512x256 S10000x256 [1] [0] [0] [1] [] []
  dot_S10000x256_S256x64_S10000x64_1_0_0_1_n_n_wf : DotDims.WF S10000x256 S256x64 S10000x64 [1] [0] [0] [1] [] []

variable [Facts₀]

def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf
def dot_S10000x512_S512x256_S10000x256_1_0_0_1_n_n : DotDims S10000x512 S512x256 S10000x256 where
  lhsContracting := [1]
  rhsContracting := [0]
  lhsNonContracting := [0]
  rhsNonContracting := [1]
  lhsBatch := []
  rhsBatch := []
  wf := dot_S10000x512_S512x256_S10000x256_1_0_0_1_n_n_wf
def dot_S10000x256_S256x64_S10000x64_1_0_0_1_n_n : DotDims S10000x256 S256x64 S10000x64 where
  lhsContracting := [1]
  rhsContracting := [0]
  lhsNonContracting := [0]
  rhsNonContracting := [1]
  lhsBatch := []
  rhsBatch := []
  wf := dot_S10000x256_S256x64_S10000x64_1_0_0_1_n_n_wf

class Facts : Prop extends Facts₀ where

variable [Facts]
-- ==== Proof.SageSpec.lean ====
/-
  One mean-aggregating graph-convolution layer followed by a linear read-out, as ONE function of the five argument
  arrays, index by index, over the extended reals.

  For a node i (10000 of them), with features X[i, ·] (256 wide), a dense weighted adjacency A (10000 × 10000), the
  projection W (256 × 512, acting on the 512-wide concatenation "own features, neighbour mean"), the read-out Wm (64 × 256)
  and its bias b (64):

      deg i        = Σ_k A[i, k]
      agg i f      = Σ_k A[i, k] · X[k, f]
      neigh i f    = agg i f / (deg i + 1)                       (the quotient of the extended reals, Ideal.div)
      pre i j      = Σ_f X[i, f] · W[j, f]  +  Σ_f neigh i f · W[j, 256 + f]
      hid i j      = max (pre i j) 0
      out (i, o)   = Σ_j hid i j · Wm[o, j]  +  b[o]

  The two programs differ from this form only by monoid identities, none of which needs a finite operand:
  a sum over the 512 concatenated columns is the sum over its first 256 plus the sum over its last 256 (sum_halves);
  a degree taken as Σ_k A[i, k] · 1 is Σ_k A[i, k] (the word 0x3F800000 denotes 1: mul_one32); a reduction started
  from the word 0x00000000 starts from 0 (zero32_add).
-/
import Idealize.ShloMosaic.PureOps.Ideal
import Idealize.ShloMosaic.PureOps.Ideal.Laws
import Idealize.ShloMosaic.Lib.ValueIdx

noncomputable section

open scoped BigOperators

namespace Cert.SageSpec

open Idealize.ShloMosaic Idealize.ShloMosaic.ValueIdx

/-- The f32 word of 1.0, read at the extended reals. -/
abbrev one32 : EReal := Ideal.ofBits .f32 0x3F800000#32
/-- The f32 word of +0.0, read at the extended reals. -/
abbrev zero32 : EReal := Ideal.ofBits .f32 0x00000000#32

theorem one32_eq : one32 = 1 := IdealRules.sign_bit.ideal_onePat .f32
theorem zero32_eq : zero32 = 0 := Ideal.ofBits_zero_f32

/-- Multiplying by the word of 1.0 changes nothing, at the infinities too. -/
theorem mul_one32 (a : EReal) : a * one32 = a := by rw [one32_eq, mul_one]
/-- Adding to the word of +0.0 changes nothing. -/
theorem zero32_add (a : EReal) : zero32 + a = a := by rw [zero32_eq, zero_add]

/-- Column f of the first half of the 512 concatenated columns. -/
abbrev lo (f : Fin 256) : Fin 512 := ⟨f.val, Nat.lt_of_lt_of_le f.isLt (by decide)⟩
/-- Column f of the second half. -/
abbrev hi (f : Fin 256) : Fin 512 := ⟨256 + f.val, by have := f.isLt; omega⟩

/-- A sum over 512 columns is the sum over the first 256 plus the sum over the last 256: in any commutative
    monoid, so on the extended reals whatever the summands are. -/
theorem sum_halves {M : Type*} [AddCommMonoid M] (g : Fin 512 → M) :
    ∑ k : Fin 512, g k = (∑ f : Fin 256, g (lo f)) + ∑ f : Fin 256, g (hi f) :=
  Fin.sum_univ_add (a := 256) (b := 256) g

section
variable (X : (⟨2, ![10000, 256]⟩ : Shape).Idx → EReal) (A : (⟨2, ![10000, 10000]⟩ : Shape).Idx → EReal)
  (W : (⟨2, ![256, 512]⟩ : Shape).Idx → EReal) (Wm : (⟨2, ![64, 256]⟩ : Shape).Idx → EReal)
  (b : (⟨1, ![64]⟩ : Shape).Idx → EReal)

/-- The weighted degree of node i: the sum of row i of the adjacency. -/
def deg (i : Fin 10000) : EReal := ∑ k : Fin 10000, A (ix2 i k)

/-- Feature f summed over the neighbours of node i, weighted by the adjacency. -/
def agg (i : Fin 10000) (f : Fin 256) : EReal := ∑ k : Fin 10000, A (ix2 i k) * X (ix2 k f)

/-- The neighbour mean: the aggregate over the degree plus one. -/
def neigh (i : Fin 10000) (f : Fin 256) : EReal := Ideal.div (agg X A i f) (deg A i + one32)

/-- The projection of "own features, neighbour mean" by W, before the rectifier: the first 256 columns of W meet the
    node's own features, the last 256 the neighbour mean. -/
def pre (i : Fin 10000) (j : Fin 256) : EReal :=
  (∑ f : Fin 256, X (ix2 i f) * W (ix2 j (lo f))) + ∑ f : Fin 256, neigh X A i f * W (ix2 j (hi f))

/-- The hidden layer: the rectified projection. -/
def hid (i : Fin 10000) (j : Fin 256) : EReal := max (pre X A W i j) zero32

/-- The logit of node i for class o: the read-out of the hidden layer plus the bias. -/
def outAt (i : Fin 10000) (o : Fin 64) : EReal :=
  (∑ j : Fin 256, hid X A W i j * Wm (ix2 o j)) + b (ix1 o)

/-- The logits as an array. -/
def out : (⟨2, ![10000, 64]⟩ : Shape).Idx → EReal := fun y => outAt X A W Wm b (y 0) (y 1)

end

end Cert.SageSpec

end
-- ==== Proof.RefIsSage.lean ====
/-
  The reference program computes the specification.

  Stage by stage, each of the reference's host operations read at an index (the generated read-at-an-index lemmas)
  is the corresponding quantity of the specification:
    the row sum of the adjacency started from the word of +0.0 is the degree (zero32_add);
    the adjacency times the features is the aggregate; their quotient after adding the word of 1.0 is the neighbour mean;
    the concatenation "features, neighbour mean" read at column f < 256 is the feature, at column 256 + f the mean;
    so its product with the transposed projection, a sum over 512 columns, is the sum over the first 256 columns plus
    the sum over the last 256 (sum_halves) — the pre-activation; its maximum with zero the hidden layer; the product
    with the transposed read-out plus the broadcast bias the logits.
-/
import proofs.«107279_g3221225472129_cont_8to1_b_1778_20_alg».proof.Proof.Gen.ReferenceIdeal.Read
import proofs.«107279_g3221225472129_cont_8to1_b_1778_20_alg».proof.Proof.SageSpec

noncomputable section

open scoped BigOperators

namespace Cert.ReferenceIdeal.IsSage

open Cert.ReferenceIdeal Cert.ReferenceIdeal.Read Cert.SageSpec
open Idealize.ShloMosaic Idealize.ShloMosaic.ValueIdx

variable (x0 : (⟨S10000x256, .f32⟩ : BufTy).Contents (Elt Ideal)) (x1 : (⟨S10000x10000, .f32⟩ : BufTy).Contents (Elt Ideal))
  (x2 : (⟨S256x512, .f32⟩ : BufTy).Contents (Elt Ideal)) (x3 : (⟨S64x256, .f32⟩ : BufTy).Contents (Elt Ideal))
  (x4 : (⟨S64, .f32⟩ : BufTy).Contents (Elt Ideal))

/-- The degree column: row r of the adjacency summed from the word of +0.0, plus the word of 1.0. -/
theorem degPlusOne_eq (r : Fin 10000) (u : Fin 1) : val_main_v4 (F := Ideal) x1 (ix2 r u) = deg x1 r + one32 := by
  rw [val_main_v4_apply, val_main_v1_apply, val_main_v0_apply, val_main_v3_apply]
  show (zero32 + ∑ k : Fin 10000, x1 (idx_main_v0 (idx_main_v1 (ix2 r u)) k)) + one32 = _
  rw [zero32_add]
  refine congrArg (· + one32) (Finset.sum_congr rfl fun k _ => congrArg x1 ?_)
  funext a; match a with | ⟨0, _⟩ => rfl | ⟨1, _⟩ => rfl

/-- The adjacency times the features, at (r, f), is the aggregate. -/
theorem agg_eq (r : Fin 10000) (f : Fin 256) : val_main_v2 (F := Ideal) x0 x1 (ix2 r f) = agg x0 x1 r f := by
  rw [val_main_v2_apply]
  refine Finset.sum_congr rfl fun k _ => ?_
  have el : lidx_main_v2 (ix2 r f) k = ix2 r k := funext fun a => by match a with | ⟨0, _⟩ => rfl | ⟨1, _⟩ => rfl
  have er : ridx_main_v2 (ix2 r f) k = ix2 k f := funext fun a => by match a with | ⟨0, _⟩ => rfl | ⟨1, _⟩ => rfl
  exact congrArg₂ (· * ·) (congrArg x1 el) (congrArg x0 er)

/-- Their quotient is the neighbour mean. -/
theorem neigh_eq (r : Fin 10000) (f : Fin 256) : val_main_v6 (F := Ideal) x0 x1 (ix2 r f) = neigh x0 x1 r f := by
  rw [val_main_v6_apply, agg_eq, val_main_v5_apply]
  have e : idx_main_v5 (ix2 r f) = ix2 r (0 : Fin 1) := funext fun a => by match a with | ⟨0, _⟩ => rfl | ⟨1, _⟩ => rfl
  rw [e, degPlusOne_eq]
  rfl

/-- The concatenation at a column of the first half is the feature. -/
theorem cat_lo (r : Fin 10000) (f : Fin 256) : val_main_v7 (F := Ideal) x0 x1 (ix2 r (lo f)) = x0 (ix2 r f) := by
  unfold val_main_v7
  exact concatenate_pair_apply_left (t := S10000x512) (s₁ := S10000x256) (s₂ := S10000x256) 1 x0 _
    _ (ix2 r (lo f)) rfl (ix2 r f)
    (fun b => by match b with | ⟨0, _⟩ => rfl | ⟨1, _⟩ => rfl)

/-- The concatenation at a column of the second half is the neighbour mean. -/
theorem cat_hi (r : Fin 10000) (f : Fin 256) : val_main_v7 (F := Ideal) x0 x1 (ix2 r (hi f)) = neigh x0 x1 r f := by
  unfold val_main_v7
  refine (concatenate_pair_apply_right (t := S10000x512) (s₁ := S10000x256) (s₂ := S10000x256) 1 x0 _
    _ (ix2 r (hi f)) rfl rfl (ix2 r f)
    (fun b hb => by match b with | ⟨0, _⟩ => rfl | ⟨1, _⟩ => exact absurd rfl hb)
    (by show f.val + 256 = 256 + f.val; omega)).trans ?_
  exact neigh_eq x0 x1 r f

/-- The projection of the concatenation: a sum over 512 columns, split at column 256. -/
theorem pre_eq (r : Fin 10000) (j : Fin 256) : val_main_v9 (F := Ideal) x0 x1 x2 (ix2 r j) = pre x0 x1 x2 r j := by
  rw [val_main_v9_apply, sum_halves]
  unfold pre
  congr 1
  · refine Finset.sum_congr rfl fun f _ => ?_
    have el : lidx_main_v9 (ix2 r j) (lo f) = ix2 r (lo f) := funext fun a => by match a with | ⟨0, _⟩ => rfl | ⟨1, _⟩ => rfl
    have er : idx_main_v8 (ridx_main_v9 (ix2 r j) (lo f)) = ix2 j (lo f) := funext fun a => by match a with | ⟨0, _⟩ => rfl | ⟨1, _⟩ => rfl
    rw [el, cat_lo, val_main_v8_apply, er]
  · refine Finset.sum_congr rfl fun f _ => ?_
    have el : lidx_main_v9 (ix2 r j) (hi f) = ix2 r (hi f) := funext fun a => by match a with | ⟨0, _⟩ => rfl | ⟨1, _⟩ => rfl
    have er : idx_main_v8 (ridx_main_v9 (ix2 r j) (hi f)) = ix2 j (hi f) := funext fun a => by match a with | ⟨0, _⟩ => rfl | ⟨1, _⟩ => rfl
    rw [el, cat_hi, val_main_v8_apply, er]

/-- The rectifier. -/
theorem hid_eq (r : Fin 10000) (j : Fin 256) : val_main_v10 (F := Ideal) x0 x1 x2 (ix2 r j) = hid x0 x1 x2 r j := by
  rw [val_main_v10_apply, pre_eq, val_main_call0_v0_apply]
  rfl

/-- The reference's result is the specification's logits. -/
theorem result_eq : val_main_v15 (F := Ideal) x0 x1 x2 x3 x4 = out x0 x1 x2 x3 x4 := by
  funext i
  obtain ⟨r, o, rfl⟩ : ∃ (r : Fin 10000) (o : Fin 64), i = ix2 r o := ⟨i 0, i 1, eq_ix2 i⟩
  show _ = outAt x0 x1 x2 x3 x4 r o
  rw [val_main_v15_apply, val_main_v12_apply, val_main_v14_apply, val_main_v13_apply]
  unfold outAt
  show (∑ k : Fin 256, _) + _ = _
  congr 1
  · refine Finset.sum_congr rfl fun k _ => ?_
    have el : lidx_main_v12 (ix2 r o) k = ix2 r k := funext fun a => by match a with | ⟨0, _⟩ => rfl | ⟨1, _⟩ => rfl
    have er : idx_main_v11 (ridx_main_v12 (ix2 r o) k) = ix2 o k := funext fun a => by match a with | ⟨0, _⟩ => rfl | ⟨1, _⟩ => rfl
    rw [el, hid_eq, val_main_v11_apply, er]
  · refine congrArg x4 ?_
    funext a; match a with | ⟨0, _⟩ => rfl

end Cert.ReferenceIdeal.IsSage

end
-- ==== Proof.KernelPayload.lean ====
/-
  The kernel body's one store, read at an element.

  At grid point t the body holds a 400-row block of the adjacency (a), the whole 10000 × 257 array "features, then a
  column of ones" (xb), the 400 rows of it that belong to the block's own nodes (xi, columns 0..255), the two transposed
  halves of the projection (w1, w2), the transposed read-out (wm) and the bias as one row (b). It stores, at row p and
  class q of the block,

      Σ_j  max ( Σ_f xi[p, f] · w1[f, j]  +  Σ_f ( (Σ_k a[p, k] · xb[k, f]) / ((Σ_k a[p, k] · xb[k, 256]) + 1) ) · w2[f, j] ) 0  ·  wm[j, q]   +   b[0, q]

  — each matrix product into a zero accumulator a plain sum over the contracted coordinate, the two column slices of the
  first product its columns 0..255 and its column 256, the divisor one column broadcast along the row.
-/
import proofs.«107279_g3221225472129_cont_8to1_b_1778_20_alg».proof.Proof.Gen.KernelIdeal.Skeleton
import proofs.«107279_g3221225472129_cont_8to1_b_1778_20_alg».proof.Proof.SageSpec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Payload

open Cert.KernelIdeal Cert.KernelIdeal.Gen Cert.SageSpec
open Idealize.ShloMosaic Idealize.ShloMosaic.ValueIdx

/-! ## The three matrix products, each read at an element as the sum over its contracted coordinate -/

/-! ### The adjacency block times "features, ones": [400, 10000] × [10000, 257] -/

theorem lhs_adj_0 (i : S400x257.Idx) (q : dot_S400x10000_S10000x257_S400x257_1_0_0_1_n_n.contr.Idx) :
    (dot_S400x10000_S10000x257_S400x257_1_0_0_1_n_n.lhsIdx i q 0).val = (i 0).val := by
  unfold DotDims.lhsIdx
  rw [dif_neg (show ¬(0 : Fin S400x10000.rank) ∈ dot_S400x10000_S10000x257_S400x257_1_0_0_1_n_n.lhsBatch by decide), dif_pos (show (0 : Fin S400x10000.rank) ∈ dot_S400x10000_S10000x257_S400x257_1_0_0_1_n_n.lhsNonContracting by decide)]
  rfl
theorem lhs_adj_1 (i : S400x257.Idx) (q : dot_S400x10000_S10000x257_S400x257_1_0_0_1_n_n.contr.Idx) :
    (dot_S400x10000_S10000x257_S400x257_1_0_0_1_n_n.lhsIdx i q 1).val = (q ⟨0, by decide⟩).val :=
  dot_S400x10000_S10000x257_S400x257_1_0_0_1_n_n.lhsIdx_val_of_single rfl i q
theorem rhs_adj_0 (i : S400x257.Idx) (q : dot_S400x10000_S10000x257_S400x257_1_0_0_1_n_n.contr.Idx) :
    (dot_S400x10000_S10000x257_S400x257_1_0_0_1_n_n.rhsIdx i q 0).val = (q ⟨0, by decide⟩).val :=
  dot_S400x10000_S10000x257_S400x257_1_0_0_1_n_n.rhsIdx_val_of_single rfl i q
theorem rhs_adj_1 (i : S400x257.Idx) (q : dot_S400x10000_S10000x257_S400x257_1_0_0_1_n_n.contr.Idx) :
    (dot_S400x10000_S10000x257_S400x257_1_0_0_1_n_n.rhsIdx i q 1).val = (i 1).val := by
  unfold DotDims.rhsIdx
  rw [dif_neg (show ¬(1 : Fin S10000x257.rank) ∈ dot_S400x10000_S10000x257_S400x257_1_0_0_1_n_n.rhsBatch by decide), dif_pos (show (1 : Fin S10000x257.rank) ∈ dot_S400x10000_S10000x257_S400x257_1_0_0_1_n_n.rhsNonContracting by decide)]
  rfl

/-- Row p of the adjacency block against column c of "features, ones". -/
theorem mm_adj_apply (l : FVec Ideal S400x10000 .f32) (r : FVec Ideal S10000x257 .f32) (p : Fin 400) (c : Fin 257) :
    matmul dot_S400x10000_S10000x257_S400x257_1_0_0_1_n_n none l r (constant (F := Ideal) S400x257 .f32 0x00000000#32) (ix2 p c)
      = ∑ k : Fin 10000, l (ix2 p k) * r (ix2 k c) := by
  simp only [matmul]
  rw [Ideal.matmul_constant_zero_apply, ← Equiv.sum_comp (contrEquiv1 dot_S400x10000_S10000x257_S400x257_1_0_0_1_n_n 10000 rfl rfl).symm]
  refine Finset.sum_congr rfl fun k _ => ?_
  have hk := contrEquiv1_symm_val dot_S400x10000_S10000x257_S400x257_1_0_0_1_n_n 10000 rfl rfl k
  have el : dot_S400x10000_S10000x257_S400x257_1_0_0_1_n_n.lhsIdx (ix2 p c) ((contrEquiv1 dot_S400x10000_S10000x257_S400x257_1_0_0_1_n_n 10000 rfl rfl).symm k) = ix2 p k := funext fun a => Fin.ext (by
    match a with
    | ⟨0, _⟩ => exact lhs_adj_0 _ _
    | ⟨1, _⟩ => exact (lhs_adj_1 _ _).trans hk)
  have er : dot_S400x10000_S10000x257_S400x257_1_0_0_1_n_n.rhsIdx (ix2 p c) ((contrEquiv1 dot_S400x10000_S10000x257_S400x257_1_0_0_1_n_n 10000 rfl rfl).symm k) = ix2 k c := funext fun a => Fin.ext (by
    match a with
    | ⟨0, _⟩ => exact (rhs_adj_0 _ _).trans hk
    | ⟨1, _⟩ => exact rhs_adj_1 _ _)
  rw [el, er]

/-! ### A 400-row block times a transposed half of the projection: [400, 256] × [256, 256] -/

theorem lhs_proj_0 (i : S400x256.Idx) (q : dot_S400x256_S256x256_S400x256_1_0_0_1_n_n.contr.Idx) :
    (dot_S400x256_S256x256_S400x256_1_0_0_1_n_n.lhsIdx i q 0).val = (i 0).val := by
  unfold DotDims.lhsIdx
  rw [dif_neg (show ¬(0 : Fin S400x256.rank) ∈ dot_S400x256_S256x256_S400x256_1_0_0_1_n_n.lhsBatch by decide), dif_pos (show (0 : Fin S400x256.rank) ∈ dot_S400x256_S256x256_S400x256_1_0_0_1_n_n.lhsNonContracting by decide)]
  rfl
theorem lhs_proj_1 (i : S400x256.Idx) (q : dot_S400x256_S256x256_S400x256_1_0_0_1_n_n.contr.Idx) :
    (dot_S400x256_S256x256_S400x256_1_0_0_1_n_n.lhsIdx i q 1).val = (q ⟨0, by decide⟩).val :=
  dot_S400x256_S256x256_S400x256_1_0_0_1_n_n.lhsIdx_val_of_single rfl i q
theorem rhs_proj_0 (i : S400x256.Idx) (q : dot_S400x256_S256x256_S400x256_1_0_0_1_n_n.contr.Idx) :
    (dot_S400x256_S256x256_S400x256_1_0_0_1_n_n.rhsIdx i q 0).val = (q ⟨0, by decide⟩).val :=
  dot_S400x256_S256x256_S400x256_1_0_0_1_n_n.rhsIdx_val_of_single rfl i q
theorem rhs_proj_1 (i : S400x256.Idx) (q : dot_S400x256_S256x256_S400x256_1_0_0_1_n_n.contr.Idx) :
    (dot_S400x256_S256x256_S400x256_1_0_0_1_n_n.rhsIdx i q 1).val = (i 1).val := by
  unfold DotDims.rhsIdx
  rw [dif_neg (show ¬(1 : Fin S256x256.rank) ∈ dot_S400x256_S256x256_S400x256_1_0_0_1_n_n.rhsBatch by decide), dif_pos (show (1 : Fin S256x256.rank) ∈ dot_S400x256_S256x256_S400x256_1_0_0_1_n_n.rhsNonContracting by decide)]
  rfl

/-- Row p of a 400 × 256 block against column j of a 256 × 256 matrix. -/
theorem mm_proj_apply (l : FVec Ideal S400x256 .f32) (r : FVec Ideal S256x256 .f32) (p : Fin 400) (j : Fin 256) :
    matmul dot_S400x256_S256x256_S400x256_1_0_0_1_n_n none l r (constant (F := Ideal) S400x256 .f32 0x00000000#32) (ix2 p j)
      = ∑ f : Fin 256, l (ix2 p f) * r (ix2 f j) := by
  simp only [matmul]
  rw [Ideal.matmul_constant_zero_apply, ← Equiv.sum_comp (contrEquiv1 dot_S400x256_S256x256_S400x256_1_0_0_1_n_n 256 rfl rfl).symm]
  refine Finset.sum_congr rfl fun k _ => ?_
  have hk := contrEquiv1_symm_val dot_S400x256_S256x256_S400x256_1_0_0_1_n_n 256 rfl rfl k
  have el : dot_S400x256_S256x256_S400x256_1_0_0_1_n_n.lhsIdx (ix2 p j) ((contrEquiv1 dot_S400x256_S256x256_S400x256_1_0_0_1_n_n 256 rfl rfl).symm k) = ix2 p k := funext fun a => Fin.ext (by
    match a with
    | ⟨0, _⟩ => exact lhs_proj_0 _ _
    | ⟨1, _⟩ => exact (lhs_proj_1 _ _).trans hk)
  have er : dot_S400x256_S256x256_S400x256_1_0_0_1_n_n.rhsIdx (ix2 p j) ((contrEquiv1 dot_S400x256_S256x256_S400x256_1_0_0_1_n_n 256 rfl rfl).symm k) = ix2 k j := funext fun a => Fin.ext (by
    match a with
    | ⟨0, _⟩ => exact (rhs_proj_0 _ _).trans hk
    | ⟨1, _⟩ => exact rhs_proj_1 _ _)
  rw [el, er]

/-! ### The hidden block times the transposed read-out: [400, 256] × [256, 64] -/

theorem lhs_out_0 (i : S400x64.Idx) (q : dot_S400x256_S256x64_S400x64_1_0_0_1_n_n.contr.Idx) :
    (dot_S400x256_S256x64_S400x64_1_0_0_1_n_n.lhsIdx i q 0).val = (i 0).val := by
  unfold DotDims.lhsIdx
  rw [dif_neg (show ¬(0 : Fin S400x256.rank) ∈ dot_S400x256_S256x64_S400x64_1_0_0_1_n_n.lhsBatch by decide), dif_pos (show (0 : Fin S400x256.rank) ∈ dot_S400x256_S256x64_S400x64_1_0_0_1_n_n.lhsNonContracting by decide)]
  rfl
theorem lhs_out_1 (i : S400x64.Idx) (q : dot_S400x256_S256x64_S400x64_1_0_0_1_n_n.contr.Idx) :
    (dot_S400x256_S256x64_S400x64_1_0_0_1_n_n.lhsIdx i q 1).val = (q ⟨0, by decide⟩).val :=
  dot_S400x256_S256x64_S400x64_1_0_0_1_n_n.lhsIdx_val_of_single rfl i q
theorem rhs_out_0 (i : S400x64.Idx) (q : dot_S400x256_S256x64_S400x64_1_0_0_1_n_n.contr.Idx) :
    (dot_S400x256_S256x64_S400x64_1_0_0_1_n_n.rhsIdx i q 0).val = (q ⟨0, by decide⟩).val :=
  dot_S400x256_S256x64_S400x64_1_0_0_1_n_n.rhsIdx_val_of_single rfl i q
theorem rhs_out_1 (i : S400x64.Idx) (q : dot_S400x256_S256x64_S400x64_1_0_0_1_n_n.contr.Idx) :
    (dot_S400x256_S256x64_S400x64_1_0_0_1_n_n.rhsIdx i q 1).val = (i 1).val := by
  unfold DotDims.rhsIdx
  rw [dif_neg (show ¬(1 : Fin S256x64.rank) ∈ dot_S400x256_S256x64_S400x64_1_0_0_1_n_n.rhsBatch by decide), dif_pos (show (1 : Fin S256x64.rank) ∈ dot_S400x256_S256x64_S400x64_1_0_0_1_n_n.rhsNonContracting by decide)]
  rfl

/-- Row p of the hidden block against column q of the transposed read-out. -/
theorem mm_out_apply (l : FVec Ideal S400x256 .f32) (r : FVec Ideal S256x64 .f32) (p : Fin 400) (q : Fin 64) :
    matmul dot_S400x256_S256x64_S400x64_1_0_0_1_n_n none l r (constant (F := Ideal) S400x64 .f32 0x00000000#32) (ix2 p q)
      = ∑ j : Fin 256, l (ix2 p j) * r (ix2 j q) := by
  simp only [matmul]
  rw [Ideal.matmul_constant_zero_apply, ← Equiv.sum_comp (contrEquiv1 dot_S400x256_S256x64_S400x64_1_0_0_1_n_n 256 rfl rfl).symm]
  refine Finset.sum_congr rfl fun k _ => ?_
  have hk := contrEquiv1_symm_val dot_S400x256_S256x64_S400x64_1_0_0_1_n_n 256 rfl rfl k
  have el : dot_S400x256_S256x64_S400x64_1_0_0_1_n_n.lhsIdx (ix2 p q) ((contrEquiv1 dot_S400x256_S256x64_S400x64_1_0_0_1_n_n 256 rfl rfl).symm k) = ix2 p k := funext fun a => Fin.ext (by
    match a with
    | ⟨0, _⟩ => exact lhs_out_0 _ _
    | ⟨1, _⟩ => exact (lhs_out_1 _ _).trans hk)
  have er : dot_S400x256_S256x64_S400x64_1_0_0_1_n_n.rhsIdx (ix2 p q) ((contrEquiv1 dot_S400x256_S256x64_S400x64_1_0_0_1_n_n 256 rfl rfl).symm k) = ix2 k q := funext fun a => Fin.ext (by
    match a with
    | ⟨0, _⟩ => exact (rhs_out_0 _ _).trans hk
    | ⟨1, _⟩ => exact rhs_out_1 _ _)
  rw [el, er]

/-! ## The layout operations of the body, each read at an element -/

/-- Column f of the 257 columns of "features, ones", for f a feature. -/
abbrev featCol (f : Fin 256) : Fin 257 := ⟨f.val, Nat.lt_of_lt_of_le f.isLt (by decide)⟩
/-- The column of ones. -/
abbrev onesCol : Fin 257 := ⟨256, by decide⟩

/-- One column [400, 1] broadcast along the rows to [400, 256] reads, at (p, f), the column at p. -/
theorem bcast_col_apply (v : (⟨2, ![400, 1]⟩ : Shape).Idx → EReal) (h : (⟨2, ![400, 1]⟩ : Shape).Broadcasts ⟨2, ![400, 256]⟩)
    (p : Fin 400) (f : Fin 256) : broadcastTo ⟨2, ![400, 256]⟩ v h (ix2 p f) = v (ix2 p (0 : Fin 1)) := by
  refine broadcastTo_apply v h (ix2 p f) (ix2 p (0 : Fin 1)) fun ax => ?_
  match ax with
  | ⟨0, _⟩ =>
    show p.val = if (400 : Nat) = 1 then 0 else p.val
    rw [if_neg (by decide)]
  | ⟨1, _⟩ =>
    show 0 = if (1 : Nat) = 1 then 0 else f.val
    rw [if_pos rfl]

/-! ## The store's value at row p, class q -/

theorem pay_apply (a : FVec Ideal S400x10000 .f32) (xb : FVec Ideal S10000x257 .f32) (xi : FVec Ideal S400x256 .f32)
    (w1 w2 : FVec Ideal S256x256 .f32) (wm : FVec Ideal S256x64 .f32) (b : FVec Ideal S1x64 .f32) (p : Fin 400) (q : Fin 64) :
    k0_pay1 (F := Ideal) a xb xi w1 w2 wm b (ix2 p q)
      = (∑ j : Fin 256, max ((∑ f : Fin 256, xi (ix2 p f) * w1 (ix2 f j))
            + ∑ f : Fin 256, Ideal.div (∑ k : Fin 10000, a (ix2 p k) * xb (ix2 k (featCol f)))
                ((∑ k : Fin 10000, a (ix2 p k) * xb (ix2 k onesCol)) + one32) * w2 (ix2 f j)) zero32 * wm (ix2 j q))
          + b (ix2 (0 : Fin 1) q) := by
  unfold k0_pay1
  simp only [shapeCast_self]
  rw [addf_apply, mm_out_apply, broadcastTo_1b_ab_apply]
  refine congrArg (· + b (ix2 (0 : Fin 1) q)) (Finset.sum_congr rfl fun j _ => ?_)
  rw [maximumf_apply, addf_apply, mm_proj_apply, mm_proj_apply, broadcast_apply]
  refine congrArg (fun z => max z zero32 * wm (ix2 j q)) ?_
  refine congrArg ((∑ f : Fin 256, xi (ix2 p f) * w1 (ix2 f j)) + ·) (Finset.sum_congr rfl fun f _ => ?_)
  rw [divf_apply, slice2_axis1_apply 0 _ _ p f (featCol f) (Nat.zero_add _).symm, mm_adj_apply, bcast_col_apply,
    addf_apply, slice2_axis1_apply 256 _ _ p (0 : Fin 1) onesCol rfl, mm_adj_apply, broadcast_apply]
  rfl

end Cert.KernelIdeal.Payload

end
-- ==== Proof.KernelBlocks.lean ====
/-
  From the kernel's blocks to its result array.

  The grid has 25 points; point t handles the 400 nodes 400·t … 400·t + 399. Its body finds in its staging buffers
  rows 400·t … of the adjacency, and — the same at every point — the array "features, then a column of ones", the two
  transposed halves of the projection, the transposed read-out and the bias as one row, all written by the host
  operations that precede the region. Reading each of these at an element turns the body's stored value (the payload
  read at an element) into the specification's logit of node 400·t + p for class q; the 25 blocks tile the result array,
  so the array ends holding the specification's logits.
-/
import proofs.«107279_g3221225472129_cont_8to1_b_1778_20_alg».proof.Proof.Gen.KernelIdeal.Value
import proofs.«107279_g3221225472129_cont_8to1_b_1778_20_alg».proof.Proof.KernelPayload
import proofs.«107279_g3221225472129_cont_8to1_b_1778_20_alg».proof.Proof.SageSpec
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

set_option maxRecDepth 16384

noncomputable section

open scoped BigOperators

namespace Cert.KernelIdeal.SageValue

open Cert.KernelIdeal Cert.KernelIdeal.Gen Cert.KernelIdeal.Payload Cert.SageSpec
open Idealize.ShloMosaic Idealize.ShloMosaic.TcCoe Idealize.ShloMosaic.Tactic Idealize.ShloMosaic.ValueIdx Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## What the body leaves in the output's staging buffer -/

/-- The body's one store covers the output block, so the block ends holding the store's value: the payload of the
    loaded blocks, the node's own features loaded from "features, ones" at the rows of the block. -/
theorem out_A {F : FTy → Type} [FloatOps F] (c : Dev nD) (i : grid0.Coords) (a1 : Memref sig .tc .vmem S400x10000 .f32) (h1 : a1.IsWhole) (a2 : Memref sig .tc .vmem S10000x257 .f32) (h2 : a2.IsWhole) (a3 : Memref sig .tc .vmem S256x256 .f32) (h3 : a3.IsWhole) (a4 : Memref sig .tc .vmem S256x256 .f32) (h4 : a4.IsWhole) (a5 : Memref sig .tc .vmem S256x64 .f32) (h5 : a5.IsWhole) (a6 : Memref sig .tc .vmem S1x64 .f32) (h6 : a6.IsWhole) (a7 : Memref sig .tc .vmem S400x64 .f32) (h7 : a7.IsWhole)
    (x0 : Vec F S400x10000 .f32) (x1 : Vec F S10000x257 .f32) (x2 : Vec F S256x256 .f32) (x3 : Vec F S256x256 .f32) (x4 : Vec F S256x64 .f32) (x5 : Vec F S1x64 .f32) :
    out0_A_6 c i a1 h1 a2 h2 a3 h3 a4 h4 a5 h5 a6 h6 a7 h7 x0 x1 x2 x3 x4 x5
      = k0_pay1 x0 x1 (View.ld x1 (Rect.unit (s := S10000x257) (k0_off1 i) S400x256.size (k0_off1_inb i))) x2 x3 x4 x5 := by
  unfold out0_A_6
  rw [View.read_writes_eq_canon _ _ _ (cover0_A_6 c i a1 h1 a2 h2 a3 h3 a4 h4 a5 h5 a6 h6 a7 h7 x0 x1 x2 x3 x4 x5)]
  unfold kernelRun0_A
  dsimp only
  sl_unfold_words
  rw [View.canon_unit_zero hz]
  simp only [View.readAt_eq_ld, h1.read_unread, h2.read_unread, h3.read_unread, h4.read_unread, h5.read_unread, h6.read_unread,
    View.ld_unit_zero (S := S400x10000) hz, View.ld_unit_zero (S := S10000x257) hz, View.ld_unit_zero (S := S256x256) hz,
    View.ld_unit_zero (S := S256x64) hz, View.ld_unit_zero (S := S1x64) hz]

/-! ## The arrays the region finds -/

/-- The five argument arrays, at their literal types. -/
abbrev argX (c : Dev nD) : FVec Ideal S10000x256 .f32 := m ((c : Thread nD τ).loc main_arg0)
abbrev argA (c : Dev nD) : FVec Ideal S10000x10000 .f32 := m ((c : Thread nD τ).loc main_arg1)
abbrev argW (c : Dev nD) : FVec Ideal S256x512 .f32 := m ((c : Thread nD τ).loc main_arg2)
abbrev argWm (c : Dev nD) : FVec Ideal S64x256 .f32 := m ((c : Thread nD τ).loc main_arg3)
abbrev argB (c : Dev nD) : FVec Ideal S64 .f32 := m ((c : Thread nD τ).loc main_arg4)

/-- The word of 1.0 as a rank-0 array, and the column of ones the host broadcasts from it. -/
abbrev onesColumn : FVec Ideal S10000x1 .f32 := broadcastInDim S10000x1 ![] bcast_S_S10000x1 (constant (F := Ideal) S_ .f32 0x3F800000#32)

/-- "Features, then a column of ones": the host's concatenation, as the region finds it. -/
theorem featOnes_eq (c : Dev nD) : (V m c main_call0_v7 : S10000x257.Idx → EReal)
    = concatenate S10000x257 1 [⟨S10000x256, argX m c⟩, ⟨S10000x1, onesColumn⟩] concatenates_S10000x256_S10000x1_S10000x257_d1 := by
  dsimp only [V, hostOps0]; after_results; rfl

/-- The first half of the projection, transposed. -/
theorem projLo_eq (c : Dev nD) : (V m c main_call0_v1 : S256x256.Idx → EReal)
    = transpose S256x256 [1, 0] (extractStridedSlice S256x256 ![0, 0] (argW m c) slices_S256x512_S256x256_0_0) transposes_S256x256_S256x256_1_0 := by
  dsimp only [V, hostOps0]; after_results; rfl

/-- The second half of the projection, transposed. -/
theorem projHi_eq (c : Dev nD) : (V m c main_call0_v3 : S256x256.Idx → EReal)
    = transpose S256x256 [1, 0] (extractStridedSlice S256x256 ![0, 256] (argW m c) slices_S256x512_S256x256_0_256) transposes_S256x256_S256x256_1_0 := by
  dsimp only [V, hostOps0]; after_results; rfl

/-- The read-out, transposed. -/
theorem readout_eq (c : Dev nD) : (V m c main_call0_v4 : S256x64.Idx → EReal)
    = transpose S256x64 [1, 0] (argWm m c) transposes_S64x256_S256x64_1_0 := by
  dsimp only [V, hostOps0]; after_results; rfl

/-- The bias as one row. -/
theorem biasRow_eq (c : Dev nD) : (V m c main_call0_v5 : S1x64.Idx → EReal)
    = shapeCast S1x64 (argB m c) shapeCasts_S64_S1x64 := by
  dsimp only [V, hostOps0]; after_results; rfl

/-- "Features, ones" at a feature column is the feature. -/
theorem featOnes_feat (c : Dev nD) (k : Fin 10000) (f : Fin 256) :
    (V m c main_call0_v7 : S10000x257.Idx → EReal) (ix2 k (featCol f)) = argX m c (ix2 k f) := by
  rw [featOnes_eq]
  exact concatenate_pair_apply_left (t := S10000x257) (s₁ := S10000x256) (s₂ := S10000x1) 1 (argX m c) _ _ (ix2 k (featCol f)) rfl (ix2 k f)
    (fun b => by match b with | ⟨0, _⟩ => rfl | ⟨1, _⟩ => rfl)

/-- "Features, ones" at the last column is the word of 1.0. -/
theorem featOnes_one (c : Dev nD) (k : Fin 10000) :
    (V m c main_call0_v7 : S10000x257.Idx → EReal) (ix2 k onesCol) = one32 := by
  rw [featOnes_eq]
  refine (concatenate_pair_apply_right (t := S10000x257) (s₁ := S10000x256) (s₂ := S10000x1) 1 (argX m c) onesColumn _ (ix2 k onesCol) rfl rfl (ix2 k (0 : Fin 1))
    (fun b hb => by match b with | ⟨0, _⟩ => rfl | ⟨1, _⟩ => exact absurd rfl hb) rfl).trans ?_
  exact broadcastInDim_apply _ bcast_S_S10000x1 _ (ix2 k (0 : Fin 1)) ix0 (fun a => a.elim0)

/-- The transposed first half of the projection at (f, j) is the projection at (j, f). -/
theorem projLo_apply (c : Dev nD) (f j : Fin 256) :
    (V m c main_call0_v1 : S256x256.Idx → EReal) (ix2 f j) = argW m c (ix2 j (lo f)) := by
  rw [projLo_eq, transpose_ix2_apply]
  exact slice2_axis1_apply 0 (argW m c) _ j f (lo f) (Nat.zero_add _).symm

/-- The transposed second half at (f, j) is the projection at (j, 256 + f). -/
theorem projHi_apply (c : Dev nD) (f j : Fin 256) :
    (V m c main_call0_v3 : S256x256.Idx → EReal) (ix2 f j) = argW m c (ix2 j (hi f)) := by
  rw [projHi_eq, transpose_ix2_apply]
  exact slice2_axis1_apply 256 (argW m c) _ j f (hi f) rfl

/-- The transposed read-out at (j, q) is the read-out at (q, j). -/
theorem readout_apply (c : Dev nD) (j : Fin 256) (q : Fin 64) :
    (V m c main_call0_v4 : S256x64.Idx → EReal) (ix2 j q) = argWm m c (ix2 q j) := by
  rw [readout_eq, transpose_ix2_apply]

/-- The bias row at (0, q) is the bias at q. -/
theorem biasRow_apply (c : Dev nD) (q : Fin 64) :
    (V m c main_call0_v5 : S1x64.Idx → EReal) (ix2 (0 : Fin 1) q) = argB m c (ix1 q) := by
  rw [biasRow_eq, shapeCast_a_1a_apply]

/-! ## The blocks the body is called with -/

/-- The printed index maps, decided over the 25 grid points: the adjacency's and the result's block index is the
    point itself on the rows and 0 on the columns; every other window's block is the whole array. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ ((grid0.coords t) 0).val = t.val :=
  (by decide +kernel : ∀ t : Fin grid0.N, _)

/-- Node 400·t + p: row p of point t's block. -/
abbrev node (t : Fin cfg0.N) (p : Fin 400) : Fin 10000 :=
  ⟨400 * t.val + p.val, by have ht : t.val < 25 := N_0 ▸ t.isLt; have := p.isLt; omega⟩

/-- The blocks at point t, at their literal types. -/
abbrev adjBlk (c : Dev nD) (t : Fin cfg0.N) : FVec Ideal S400x10000 .f32 := iblk m c 0 t
abbrev featOnesBlk (c : Dev nD) (t : Fin cfg0.N) : FVec Ideal S10000x257 .f32 := iblk m c 1 t
abbrev projLoBlk (c : Dev nD) (t : Fin cfg0.N) : FVec Ideal S256x256 .f32 := iblk m c 2 t
abbrev projHiBlk (c : Dev nD) (t : Fin cfg0.N) : FVec Ideal S256x256 .f32 := iblk m c 3 t
abbrev readoutBlk (c : Dev nD) (t : Fin cfg0.N) : FVec Ideal S256x64 .f32 := iblk m c 4 t
abbrev biasBlk (c : Dev nD) (t : Fin cfg0.N) : FVec Ideal S1x64 .f32 := iblk m c 5 t

/-- Row p of the adjacency block is row 400·t + p of the adjacency. -/
theorem adjBlk_apply (c : Dev nD) (t : Fin cfg0.N) (p : Fin 400) (k : Fin 10000) :
    adjBlk m c t (ix2 p k) = argA m c (ix2 (node t p) k) := by
  obtain ⟨e0, e1, -⟩ := idx_facts t
  show V m c main_arg1 (((cfg0.win 0).blk t).view.emb (ix2 p k)) = _
  rw [V_main_arg1]
  refine congrArg (m ((c : Thread nD τ).loc main_arg1)) ?_
  funext a; apply Fin.ext
  match a with
  | ⟨0, _⟩ => show win0_0.index t (0 : Fin 2) * 400 + 1 * p.val = 400 * t.val + p.val; rw [e0]; omega
  | ⟨1, _⟩ => show win0_0.index t (1 : Fin 2) * 10000 + 1 * k.val = k.val; rw [e1]; omega

/-- A window whose block is its whole array holds the array. -/
theorem featOnesBlk_eq (c : Dev nD) (t : Fin cfg0.N) : featOnesBlk m c t = (V m c main_call0_v7 : S10000x257.Idx → EReal) := by
  obtain ⟨-, -, e0, e1, -⟩ := idx_facts t
  funext y
  show V m c main_call0_v7 (((cfg0.win 1).blk t).view.emb y) = V m c main_call0_v7 y
  refine congrArg (V m c main_call0_v7) ?_
  funext a; apply Fin.ext
  match a with
  | ⟨0, _⟩ => show win0_1.index t (0 : Fin 2) * 10000 + 1 * (y 0).val = (y 0).val; rw [e0]; omega
  | ⟨1, _⟩ => show win0_1.index t (1 : Fin 2) * 257 + 1 * (y 1).val = (y 1).val; rw [e1]; omega

theorem projLoBlk_eq (c : Dev nD) (t : Fin cfg0.N) : projLoBlk m c t = (V m c main_call0_v1 : S256x256.Idx → EReal) := by
  obtain ⟨-, -, -, -, e0, e1, -⟩ := idx_facts t
  funext y
  show V m c main_call0_v1 (((cfg0.win 2).blk t).view.emb y) = V m c main_call0_v1 y
  refine congrArg (V m c main_call0_v1) ?_
  funext a; apply Fin.ext
  match a with
  | ⟨0, _⟩ => show win0_2.index t (0 : Fin 2) * 256 + 1 * (y 0).val = (y 0).val; rw [e0]; omega
  | ⟨1, _⟩ => show win0_2.index t (1 : Fin 2) * 256 + 1 * (y 1).val = (y 1).val; rw [e1]; omega

theorem projHiBlk_eq (c : Dev nD) (t : Fin cfg0.N) : projHiBlk m c t = (V m c main_call0_v3 : S256x256.Idx → EReal) := by
  obtain ⟨-, -, -, -, -, -, e0, e1, -⟩ := idx_facts t
  funext y
  show V m c main_call0_v3 (((cfg0.win 3).blk t).view.emb y) = V m c main_call0_v3 y
  refine congrArg (V m c main_call0_v3) ?_
  funext a; apply Fin.ext
  match a with
  | ⟨0, _⟩ => show win0_3.index t (0 : Fin 2) * 256 + 1 * (y 0).val = (y 0).val; rw [e0]; omega
  | ⟨1, _⟩ => show win0_3.index t (1 : Fin 2) * 256 + 1 * (y 1).val = (y 1).val; rw [e1]; omega

theorem readoutBlk_eq (c : Dev nD) (t : Fin cfg0.N) : readoutBlk m c t = (V m c main_call0_v4 : S256x64.Idx → EReal) := by
  obtain ⟨-, -, -, -, -, -, -, -, e0, e1, -⟩ := idx_facts t
  funext y
  show V m c main_call0_v4 (((cfg0.win 4).blk t).view.emb y) = V m c main_call0_v4 y
  refine congrArg (V m c main_call0_v4) ?_
  funext a; apply Fin.ext
  match a with
  | ⟨0, _⟩ => show win0_4.index t (0 : Fin 2) * 256 + 1 * (y 0).val = (y 0).val; rw [e0]; omega
  | ⟨1, _⟩ => show win0_4.index t (1 : Fin 2) * 64 + 1 * (y 1).val = (y 1).val; rw [e1]; omega

theorem biasBlk_eq (c : Dev nD) (t : Fin cfg0.N) : biasBlk m c t = (V m c main_call0_v5 : S1x64.Idx → EReal) := by
  obtain ⟨-, -, -, -, -, -, -, -, -, -, e0, e1, -⟩ := idx_facts t
  funext y
  show V m c main_call0_v5 (((cfg0.win 5).blk t).view.emb y) = V m c main_call0_v5 y
  refine congrArg (V m c main_call0_v5) ?_
  funext a; apply Fin.ext
  match a with
  | ⟨0, _⟩ => show win0_5.index t (0 : Fin 2) * 1 + 1 * (y 0).val = (y 0).val; rw [e0]; omega
  | ⟨1, _⟩ => show win0_5.index t (1 : Fin 2) * 64 + 1 * (y 1).val = (y 1).val; rw [e1]; omega

/-- The node's own features: the load of rows 400·t … from "features, ones", columns 0..255. -/
theorem ownFeat_apply (c : Dev nD) (t : Fin cfg0.N) (p : Fin 400) (f : Fin 256) :
    View.ld (Val := Elt Ideal) (e' := .f32) (featOnesBlk m c t) (Rect.unit (s := S10000x257) (k0_off1 (grid0.coords t)) S400x256.size (k0_off1_inb (grid0.coords t))) (ix2 p f)
      = argX m c (ix2 (node t p) f) := by
  have et : ((grid0.coords t) 0).val = t.val := (idx_facts t).2.2.2.2.2.2.2.2.2.2.2.2.2.2
  rw [featOnesBlk_eq, ← featOnes_feat m c (node t p) f]
  show (V m c main_call0_v7 : S10000x257.Idx → EReal) ((Rect.unit (s := S10000x257) (k0_off1 (grid0.coords t)) S400x256.size (k0_off1_inb (grid0.coords t))).idx (ix2 p f)) = _
  refine congrArg (V m c main_call0_v7 : S10000x257.Idx → EReal) ?_
  funext a; apply Fin.ext
  match a with
  | ⟨0, _⟩ => show (k0_off1 (grid0.coords t)) 0 + 1 * p.val = 400 * t.val + p.val; rw [k0_off1_eq]; show 400 * ((grid0.coords t) 0).val + 1 * p.val = _; rw [et]; omega
  | ⟨1, _⟩ => show (k0_off1 (grid0.coords t)) 1 + 1 * f.val = f.val; rw [k0_off1_eq]; show 0 + 1 * f.val = f.val; omega

/-! ## What point t writes back, and the result array -/

/-- The specification's logits of this device's arguments, as contents of the result array. -/
abbrev result (c : Dev nD) : Buf (Elt Ideal) ((c : Thread nD τ).loc main_v0) :=
  out (argX m c) (argA m c) (argW m c) (argWm m c) (argB m c)

/-- The body's stored value at row p, class q of point t's block is the logit of node 400·t + p for class q: the
    payload read at an element, each block read where it lies in its array, and a degree taken with a column of
    ones the degree (mul_one32). -/
theorem block_value (c : Dev nD) (t : Fin cfg0.N) (p : Fin 400) (q : Fin 64) :
    k0_pay1 (F := Ideal) (adjBlk m c t) (featOnesBlk m c t)
        (View.ld (Val := Elt Ideal) (e' := .f32) (featOnesBlk m c t) (Rect.unit (s := S10000x257) (k0_off1 (grid0.coords t)) S400x256.size (k0_off1_inb (grid0.coords t))))
        (projLoBlk m c t) (projHiBlk m c t) (readoutBlk m c t) (biasBlk m c t) (ix2 p q)
      = outAt (argX m c) (argA m c) (argW m c) (argWm m c) (argB m c) (node t p) q := by
  refine (pay_apply _ _ _ _ _ _ _ p q).trans ?_
  unfold outAt hid pre neigh agg deg
  refine congrArg₂ (· + ·) (Finset.sum_congr rfl fun j _ => ?_) ((congrFun (biasBlk_eq m c t) _).trans (biasRow_apply m c q))
  refine congrArg₂ (· * ·) (congrArg (max · zero32) (congrArg₂ (· + ·) (Finset.sum_congr rfl fun f _ => ?_) (Finset.sum_congr rfl fun f _ => ?_)))
    ((congrFun (readoutBlk_eq m c t) _).trans (readout_apply m c j q))
  · exact congrArg₂ (· * ·) (ownFeat_apply m c t p f) ((congrFun (projLoBlk_eq m c t) _).trans (projLo_apply m c f j))
  · refine congrArg₂ (· * ·) (congrArg₂ Ideal.div (Finset.sum_congr rfl fun k _ => ?_) (congrArg (· + one32) (Finset.sum_congr rfl fun k _ => ?_)))
      ((congrFun (projHiBlk_eq m c t) _).trans (projHi_apply m c f j))
    · exact congrArg₂ (· * ·) (adjBlk_apply m c t p k) ((congrFun (featOnesBlk_eq m c t) _).trans (featOnes_feat m c k f))
    · exact (congrArg₂ (· * ·) (adjBlk_apply m c t p k) ((congrFun (featOnesBlk_eq m c t) _).trans (featOnes_one m c k))).trans (mul_one32 _)

/-- WHAT POINT t WRITES BACK is block t of the specification's logits. -/
theorem flushed_eq (c : Dev nD) (t : Fin cfg0.N) :
    (dats m 0 c).flushed 6 t = ((cfg0.win 6).blk t).view.read (Elt Ideal) (result m c) := by
  have e0 : win0_6.index t (0 : Fin 2) = t.val := (idx_facts t).2.2.2.2.2.2.2.2.2.2.2.2.1
  have e1 : win0_6.index t (1 : Fin 2) = 0 := (idx_facts t).2.2.2.2.2.2.2.2.2.2.2.2.2.1
  rw [Value.flushed6_A, out_A]
  funext y
  obtain ⟨p, q, rfl⟩ : ∃ (p : Fin 400) (q : Fin 64), y = ix2 p q := ⟨y 0, y 1, eq_ix2 y⟩
  refine (block_value m c t p q).trans ?_
  have h0 : ((cfg0.win 6).blk t).view.emb (ix2 p q) 0 = node t p :=
    Fin.ext (by show win0_6.index t (0 : Fin 2) * 400 + 1 * p.val = 400 * t.val + p.val; rw [e0]; omega)
  have h1 : ((cfg0.win 6).blk t).view.emb (ix2 p q) 1 = q :=
    Fin.ext (by show win0_6.index t (1 : Fin 2) * 64 + 1 * q.val = q.val; rw [e1]; omega)
  show _ = outAt (argX m c) (argA m c) (argW m c) (argWm m c) (argB m c)
    (((cfg0.win 6).blk t).view.emb (ix2 p q) 0) (((cfg0.win 6).blk t).view.emb (ix2 p q) 1)
  rw [h0, h1]

/-- An index of the result array is in point t's block iff each coordinate is in the block's range on its axis. -/
theorem mem_blk (t : Fin cfg0.N) (i : S10000x64.Idx) :
    i ∈ ((cfg0.win 6).blk t).view.set ↔ ∀ a : Fin 2, win0_6.index t a * S400x64.size a ≤ (i a).val ∧ (i a).val < win0_6.index t a * S400x64.size a + S400x64.size a := by
  show i ∈ ((View.whole main_v0).slice (win0_6.rect t)).set ↔ _
  rw [View.set_slice_whole, Rect.mem_set_unit]
  exact Iff.rfl

/-- The 25 blocks of 400 rows tile the 10000 rows: node i is in the block of point i / 400. -/
theorem cover (i : S10000x64.Idx) : ∃ t : Fin cfg0.N, (cfg0.win 6).flush t = true ∧ i ∈ ((cfg0.win 6).blk t).view.set := by
  have hi0 : (i 0).val < 10000 := (i 0).isLt
  have hi1 : (i 1).val < 64 := (i 1).isLt
  let t : Fin cfg0.N := ⟨(i 0).val / 400, by show (i 0).val / 400 < grid0.N; rw [N_0]; omega⟩
  have e0 : win0_6.index t (0 : Fin 2) = (i 0).val / 400 := (idx_facts t).2.2.2.2.2.2.2.2.2.2.2.2.1
  have e1 : win0_6.index t (1 : Fin 2) = 0 := (idx_facts t).2.2.2.2.2.2.2.2.2.2.2.2.2.1
  refine ⟨t, flush0_6 t, ?_⟩
  rw [mem_blk]
  intro a
  match a with
  | ⟨0, _⟩ => show win0_6.index t (0 : Fin 2) * 400 ≤ (i 0).val ∧ (i 0).val < win0_6.index t (0 : Fin 2) * 400 + 400; rw [e0]; omega
  | ⟨1, _⟩ => show win0_6.index t (1 : Fin 2) * 64 ≤ (i 1).val ∧ (i 1).val < win0_6.index t (1 : Fin 2) * 64 + 64; rw [e1]; omega

/-- THE RESULT ARRAY after the run: the specification's logits. -/
theorem final (c : Dev nD) : (dats m 0 c).arrAt 6 cfg0.N = result m c :=
  (dats m 0 c).arrAt_eq_of_cover 6 (result m c) (fun t _ => flushed_eq m c t) cover

/-- The kernel's run, read: the result array at the specification's logits, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.SageValue

end
-- ==== Proof.lean ====
/-
  A fused graph-convolution kernel against its reference: equal results over the extended reals.

  Both programs compute, for 10000 nodes with 256 features X, a dense weighted adjacency A, a projection W of the
  512-wide "own features, neighbour mean" and a read-out Wm with bias b,

      out[i, o] = Σ_j max( Σ_f X[i,f]·W[j,f] + Σ_f ((Σ_k A[i,k]·X[k,f]) / (Σ_k A[i,k] + 1))·W[j,256+f] , 0 )·Wm[o,j] + b[o]

  (Proof/SageSpec.lean). The reference takes the degree by a row sum, concatenates features and neighbour mean and
  multiplies once by the transposed projection (Proof/RefIsSage.lean: a sum over 512 columns is the sum of its two
  halves). The kernel walks the adjacency once in 25 blocks of 400 rows: it appends a column of ones to the features so
  that one matrix product yields both the aggregate and the degree (Σ_k A[i,k]·1), multiplies the node's own features
  and the neighbour mean by the two transposed halves of the projection and adds, and writes 400 rows of logits per
  block (Proof/KernelPayload.lean: the stored value at an element; Proof/KernelBlocks.lean: each block read where it
  lies in its array, and the 25 blocks tile the result). Every step is an identity of a commutative monoid or of
  multiplication by one, so nothing here needs the inputs to be finite: the precondition is never opened.

  The kernel changes no operation when idealized, so "preserves" is trivial; the three frames are the generated
  frame runs (the reference's is its generated run with the result dropped).
-/
import proofs.«107279_g3221225472129_cont_8to1_b_1778_20_alg».proof.Defs
import proofs.«107279_g3221225472129_cont_8to1_b_1778_20_alg».proof.Proof.Gen.Kernel
import proofs.«107279_g3221225472129_cont_8to1_b_1778_20_alg».proof.Proof.Gen.Kernel.Skeleton
import proofs.«107279_g3221225472129_cont_8to1_b_1778_20_alg».proof.Proof.Gen.Kernel.Launch
import proofs.«107279_g3221225472129_cont_8to1_b_1778_20_alg».proof.Proof.Gen.Kernel.Points
import proofs.«107279_g3221225472129_cont_8to1_b_1778_20_alg».proof.Proof.Gen.Kernel.Frame
import proofs.«107279_g3221225472129_cont_8to1_b_1778_20_alg».proof.Proof.Gen.KernelIdeal
import proofs.«107279_g3221225472129_cont_8to1_b_1778_20_alg».proof.Proof.Gen.KernelIdeal.Skeleton
import proofs.«107279_g3221225472129_cont_8to1_b_1778_20_alg».proof.Proof.Gen.KernelIdeal.Launch
import proofs.«107279_g3221225472129_cont_8to1_b_1778_20_alg».proof.Proof.Gen.KernelIdeal.Points
import proofs.«107279_g3221225472129_cont_8to1_b_1778_20_alg».proof.Proof.Gen.KernelIdeal.Frame
import proofs.«107279_g3221225472129_cont_8to1_b_1778_20_alg».proof.Proof.Gen.ReferenceIdeal
import proofs.«107279_g3221225472129_cont_8to1_b_1778_20_alg».proof.Proof.Gen.Pre_finite_inputs
import proofs.«107279_g3221225472129_cont_8to1_b_1778_20_alg».proof.Proof.Gen.KernelIdeal.Value
import proofs.«107279_g3221225472129_cont_8to1_b_1778_20_alg».proof.Proof.Gen.ReferenceIdeal.Run
import proofs.«107279_g3221225472129_cont_8to1_b_1778_20_alg».proof.Proof.Gen.ReferenceIdeal.Read
import proofs.«107279_g3221225472129_cont_8to1_b_1778_20_alg».proof.Proof.RefIsSage
import proofs.«107279_g3221225472129_cont_8to1_b_1778_20_alg».proof.Proof.KernelBlocks
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From arguments that agree, the kernel's result array ends at the specification's logits (Proof/KernelBlocks.lean)
    and the reference's result is the same function of the arguments (Proof/RefIsSage.lean). -/
theorem algebraic : Cert.algebraic_KernelIdeal_ReferenceIdeal := by
  intro m ρ m' ρ' _ hagree
  refine ⟨fun c => Cert.KernelIdeal.SageValue.result m c, Cert.KernelIdeal.SageValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.IsSage.result_eq,
    (hagree c).1, (hagree c).2.1, (hagree c).2.2.1, (hagree c).2.2.2.1, (hagree c).2.2.2.2] <;> rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
